-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S16x2048x128 : Shape := ⟨3, ![16, 2048, 128]⟩
abbrev S16x128x2048 : Shape := ⟨3, ![16, 128, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S16x2048x128 : S_.BroadcastsInDim S16x2048x128 (![] : Fin 0 → Fin S16x2048x128.rank)
  reducesTo_S16x2048x128_S_d0_1_2 : S16x2048x128.ReducesTo [0, 1, 2] S_
  bcast_S_S16x128x2048 : S_.BroadcastsInDim S16x128x2048 (![] : Fin 0 → Fin S16x128x2048.rank)
  reducesTo_S16x128x2048_S_d0_1_2 : S16x128x2048.ReducesTo [0, 1, 2] S_

variable [Facts]

def fn {F : FTy → Type} [FloatOps F] (main_arg0 : FVec F S32768x2048 .f32) (main_arg1 : FVec F S16x2048x128 .f32) (main_arg2 : FVec F S16x128x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x128x2048 .f32 := Host.absf main_arg2
  let main_cst_2 : FVec F S_ .f32 := constant S_ .f32 0x7F800000#32
  let main_v10 : FVec F S16x128x2048 .f32 := broadcastInDim S16x128x2048 ![] bcast_S_S16x128x2048 main_cst_2
  let main_v11 : IVec S16x128x2048 1 := cmpf .olt main_v9 main_v10
  let main_c_3 : IVec S_ 1 := constantI S_ 1 1#1
  let main_v12 : IVec S_ 1 := (fun x v => Host.reduce IntOp.andi x v reducesTo_S16x128x2048_S_d0_1_2 h_S_) main_v11 main_c_3
  let main_v13 : IVec S_ 1 := andi main_v8 main_v12
  main_v13
-- ==== Kernel.lean ====
abbrev S32768x2048 : Shape := ⟨2, ![32768, 2048]⟩
abbrev S16x2048x128 : Shape := ⟨3, ![16, 2048, 128]⟩
abbrev S16x128x2048 : Shape := ⟨3, ![16, 128, 2048]⟩
abbrev S512x2048 : Shape := ⟨2, ![512, 2048]⟩
abbrev S1x2048x128 : Shape := ⟨3, ![1, 2048, 128]⟩
abbrev S1x128x2048 : Shape := ⟨3, ![1, 128, 2048]⟩
abbrev S2048x128 : Shape := ⟨2, ![2048, 128]⟩
abbrev S128x2048 : Shape := ⟨2, ![128, 2048]⟩
abbrev S512x128 : Shape := ⟨2, ![512, 128]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S16x2048x128, .f32⟩
  | .hbm, ⟨2, _⟩ => ⟨S16x128x2048, .f32⟩
  | .hbm, ⟨3, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048x128, .f32⟩
  | .local _ .vmem, ⟨3, _⟩ => ⟨S1x2048x128, .f32⟩
  | .local _ .vmem, ⟨4, _⟩ => ⟨S1x128x2048, .f32⟩
  | .local _ .vmem, ⟨5, _⟩ => ⟨S1x128x2048, .f32⟩
  | .local _ .vmem, ⟨6, _⟩ => ⟨S512x2048, .f32⟩
  | .local _ .vmem, ⟨7, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  dot_S512x2048_S2048x128_S512x128_1_0_0_1_n_n_wf : DotDims.WF S512x2048 S2048x128 S512x128 [1] [0] [0] [1] [] []
  dot_S512x128_S128x2048_S512x2048_1_0_0_1_n_n_wf : DotDims.WF S512x128 S128x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S16x128x2048.size a
  hwx0_2 : ∀ i : grid0.Coords, EltTy.bits .f32 = 32 ∨ (Rect.block (s := S16x128x2048) S1x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S32768x2048.size a
  hwx0_3 : ∀ i : grid0.Coords, EltTy.bits .f32 = 32 ∨ (Rect.block (s := S32768x2048) S512x2048.size (cc0_transform_3 i) (hinb0_3 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S16x2048x128 : Shape := ⟨3, ![16, 2048, 128]⟩
abbrev S16x128x2048 : Shape := ⟨3, ![16, 128, 2048]⟩
abbrev S16x2048x2048 : Shape := ⟨3, ![16, 2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16x2048x128, .f32⟩
  | .hbm, ⟨2, _⟩ => ⟨S16x128x2048, .f32⟩
  | .hbm, ⟨3, _⟩ => ⟨S16x2048x2048, .f32⟩
  | .hbm, ⟨4, _⟩ => ⟨S16x2048x128, .f32⟩
  | .hbm, ⟨5, _⟩ => ⟨S16x2048x2048, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  shapeCasts_S32768x2048_S16x2048x2048 : S32768x2048.ShapeCasts S16x2048x2048
  bcast_S_S16x2048x2048 : S_.BroadcastsInDim S16x2048x2048 (![] : Fin 0 → Fin S16x2048x2048.rank)
  shapeCasts_S16x2048x2048_S32768x2048 : S16x2048x2048.ShapeCasts S32768x2048
  dot_S16x2048x2048_S16x2048x128_S16x2048x128_2_1_1_2_0_0_wf : DotDims.WF S16x2048x2048 S16x2048x128 S16x2048x128 [2] [1] [1] [2] [0] [0]
  dot_S16x2048x128_S16x128x2048_S16x2048x2048_2_1_1_2_0_0_wf : DotDims.WF S16x2048x128 S16x128x2048 S16x2048x2048 [2] [1] [1] [2] [0] [0]

variable [Facts₀]

def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf
def dot_S16x2048x128_S16x128x2048_S16x2048x2048_2_1_1_2_0_0 : DotDims S16x2048x128 S16x128x2048 S16x2048x2048 where
  lhsContracting := [2]
  rhsContracting := [1]
  lhsNonContracting := [1]
  rhsNonContracting := [2]
  lhsBatch := [0]
  rhsBatch := [0]
  wf := dot_S16x2048x128_S16x128x2048_S16x2048x2048_2_1_1_2_0_0_wf

class Facts : Prop extends Facts₀ where

variable [Facts]
-- ==== Proof.LibDenseLayer.lean ====
/-
  A dense layer read at an index, at the ideal values.

  The product of an m×k matrix A with a k×n matrix B has, at (r, h), the entry Σ_l A(r, l)·B(l, h). At the ideal
  values, where no rounding and no order of summation is left, both the kernel's product into a zero accumulator and
  the host's product read exactly that sum. The four coordinate lemmas say where each operand is read: the contracted
  axis takes the contraction's one coordinate, the kept axis the matching coordinate of the result.

  The bias of the layer is a vector of n entries laid out as one row and repeated down the m rows: at (p, c) it reads
  the vector's entry c, whichever of the two spellings (a cast then a broadcast; two broadcasts in dimensions) wrote it.

  ELU is x where x > 0 and eˣ − 1 elsewhere. One spelling takes eˣ − 1 of x itself; the other multiplies by one the
  value e^y − 1 at y = 0 where x > 0, y = x elsewhere. On the branch that is read (x ≤ 0) y is x, so the two agree on
  every extended real.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

namespace Idealize.ShloMosaic.DenseLayer

open Idealize.ShloMosaic Idealize.ShloMosaic.ValueIdx

/-! ## The product of an m×k matrix with a k×n matrix -/

section Product
variable {m k n : ℕ}

/-- The dimension numbers `[1] × [0]`, kept axes `[0]` and `[1]`, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's kept axis reads the result's first coordinate. -/
theorem lhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's contracted axis reads the contraction's coordinate. -/
theorem rhs_0 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 0).val = (q ⟨0, Nat.one_pos⟩).val :=
  (dims w).rhsIdx_val_of_single rfl j q

/-- The right operand's kept axis reads the result's second coordinate. -/
theorem rhs_1 (w : DotDims.WF ⟨2, ![m, k]⟩ ⟨2, ![k, n]⟩ ⟨2, ![m, n]⟩ [1] [0] [0] [1] [] [])
    (j : (⟨2, ![m, n]⟩ : Shape).Idx) (q : (dims w).contr.Idx) :
    ((dims w).rhsIdx j q 1).val = (j 1).val := by
  unfold DotDims.rhsIdx
  rw [dif_neg (show ¬(1 : Fin 2) ∈ (dims w).rhsBatch from List.not_mem_nil),
    dif_pos (show (1 : Fin 2) ∈ (dims w).rhsNonContracting from List.mem_singleton.mpr rfl)]
  rfl

/-- The contraction's sum, re-indexed by the contracted coordinate: the left operand is read along row `r`, the right
    one down column `h`. -/
theorem sum_contr (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 l h) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 l h := by
    funext ax; apply Fin.ext
    match ax with
    | ⟨0, _⟩ => exact (rhs_0 w _ _).trans c2
    | ⟨1, _⟩ => exact rhs_1 w _ _
  rw [l2, r2]

/-- A kernel's product of an m×k matrix with a k×n matrix into the zero accumulator, read at `(r, h)`. -/
theorem matmul_rows_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (h : Fin n) :
    FloatOps.matmul (⟨[1], [0], [0], [1], [], [], w⟩ : DotDims _ _ _) prec A B
        (constant ⟨2, ![m, n]⟩ .f32 0x00000000#32) (ix2 r h)
      = ∑ l : Fin k, A (ix2 r l) * B (ix2 l h) := by
  rw [Ideal.matmul_constant_zero_apply]
  exact sum_contr w A B r h

/-- The host's product of an m×k matrix with a k×n matrix, read at `(r, h)`. -/
theorem dotGeneral_rows_apply {φ₁ φ₂ : FTy}
    (w : DotDims.WF ⟨2, ![m, k]⟩ ⟨2, ![k, n]⟩ ⟨2, ![m, n]⟩ [1] [0] [0] [1] [] [])
    (prec : Option ContractPrecision) (sched : HostSchedule) (A : FVec Ideal ⟨2, ![m, k]⟩ φ₁) (B : FVec Ideal ⟨2, ![k, n]⟩ φ₂)
    (r : Fin m) (h : Fin n) :
    FloatOps.dotGeneral (⟨[1], [0], [0], [1], [], [], w⟩ : DotDims _ _ _) prec sched A B (ix2 r h)
      = ∑ l : Fin k, A (ix2 r l) * B (ix2 l h) := by
  rw [Ideal.dotGeneral_apply]
  exact sum_contr w A B r h

end Product

/-! ## The bias row -/

section Bias
variable {α : Type} {a b : ℕ}

/-- A vector `[b]` cast to one row `[1, b]` and broadcast down `a` rows reads, at `(p, c)`, the vector at `c`. -/
theorem bias_cast_apply (v : (⟨1, ![b]⟩ : Shape).Idx → α) (h1 : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v h1) hb (ix2 p c) = v (ix1 c) := by
  rw [broadcastTo_1b_ab_apply, shapeCast_a_1a_apply]

/-- A vector `[b]` laid along axis 1 of a one-row matrix `[1, b]` reads, at `(u, c)`, the vector at `c`. -/
theorem broadcastInDim_vec_row_apply (h : (⟨1, ![b]⟩ : Shape).BroadcastsInDim ⟨2, ![1, b]⟩ ![1])
    (v : (⟨1, ![b]⟩ : Shape).Idx → α) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[b]` laid along axis 1 of a one-row matrix and that row repeated down `a` rows reads, at `(p, c)`,
    the vector at `c`. -/
theorem bias_inDim_apply (h1 : (⟨1, ![b]⟩ : Shape).BroadcastsInDim ⟨2, ![1, b]⟩ ![1])
    (h2 : (⟨2, ![1, b]⟩ : Shape).BroadcastsInDim ⟨2, ![a, b]⟩ ![0, 1])
    (v : (⟨1, ![b]⟩ : Shape).Idx → α) (p : Fin a) (c : Fin b) :
    broadcastInDim ⟨2, ![a, b]⟩ ![0, 1] h2 (broadcastInDim ⟨2, ![1, b]⟩ ![1] h1 v) (ix2 p c) = v (ix1 c) := by
  rw [broadcastInDim_oneRow_apply, broadcastInDim_vec_row_apply]

end Bias

/-! ## ELU on the extended reals -/

/-- ELU: `x` where `x > 0`, `eˣ − 1` elsewhere. -/
def elu (x : EReal) : EReal := Scalar.select (Ideal.cmp .ogt x 0) x (Ideal.exp x - 1)

/-- The spelling that multiplies by one the value `e^y − 1` at `y = 0` where `x > 0`, `y = x` elsewhere, is ELU. -/
theorem elu_guarded (x : EReal) :
    Scalar.select (Ideal.cmp .ogt x 0) x (1 * (Ideal.exp (Scalar.select (Ideal.cmp .ogt x 0) 0 x) - 1)) = elu x := by
  unfold elu
  by_cases hc : Ideal.cmp .ogt x 0 = 1#1
  · rw [hc, select_one, select_one]
  · rw [eq_zero_of_ne_one hc, select_zero, select_zero, select_zero, one_mul]

/-! ## The two spellings of ELU on arrays, read at an index -/

section Spellings
variable {s : Shape}

/-- The kernel's spelling, `x` where `x > 0` else `exp x − 1` over splat constants, read at an index. -/
theorem elu_kernel_apply (Y : FVec Ideal s .f32) (j : s.Idx) :
    select (cmpf .ogt Y (broadcast s (FloatOps.ofBits (F := Ideal) .f32 0x00000000#32))) Y
        (subf (exp Y) (broadcast s (FloatOps.ofBits (F := Ideal) .f32 0x3F800000#32))) j = elu (Y j) := by
  show Scalar.select (Ideal.cmp .ogt (Y j) (Ideal.ofBits .f32 0x00000000#32)) (Y j)
      (Ideal.exp (Y j) - Ideal.ofBits .f32 0x3F800000#32) = _
  rw [Ideal.ofBits_zero_f32, Ideal.ofBits_one_f32]
  rfl

/-- The host's spelling, `x` where `x > 0` else `1 · expm1 (0 where x > 0 else x)` over broadcast scalars, read at an
    index. -/
theorem elu_host_apply (hb : (⟨0, ![]⟩ : Shape).BroadcastsInDim s ![]) (Y : FVec Ideal s .f32) (j : s.Idx) :
    select (cmpf .ogt Y (broadcastInDim s ![] hb (constant (F := Ideal) ⟨0, ![]⟩ .f32 0x00000000#32))) Y
        (mulf (broadcastInDim s ![] hb (constant (F := Ideal) ⟨0, ![]⟩ .f32 0x3F800000#32))
          (Host.expm1 (select (cmpf .ogt Y (broadcastInDim s ![] hb (constant (F := Ideal) ⟨0, ![]⟩ .f32 0x00000000#32)))
            (broadcastInDim s ![] hb (id (constant (F := Ideal) ⟨0, ![]⟩ .f32 0x00000000#32))) Y))) j = elu (Y j) := by
  show Scalar.select (Ideal.cmp .ogt (Y j) (Ideal.ofBits .f32 0x00000000#32)) (Y j)
      (Ideal.ofBits .f32 0x3F800000#32 * (Ideal.exp (Scalar.select (Ideal.cmp .ogt (Y j) (Ideal.ofBits .f32 0x00000000#32))
        (Ideal.ofBits .f32 0x00000000#32) (Y j)) - 1)) = _
  rw [Ideal.ofBits_zero_f32, Ideal.ofBits_one_f32]
  exact elu_guarded (Y j)

end Spellings

end Idealize.ShloMosaic.DenseLayer

end
-- ==== Proof.KernelTile.lean ====
/-
  One grid point of the kernel, read at an index.

  At a grid point the body holds a tile of 512 token rows (512 × 2048), its expert's projection (2048 × 128, behind a
  leading unit axis) and expansion (128 × 2048, likewise). It multiplies the tile by the projection, the 512 × 128 result
  by the expansion, and scales by one quarter. The changes of float format on the way are the identity on extended reals,
  and dropping the leading unit axis reads the same entry; so entry (p, q) of what it stores is

      ( Σ_r ( Σ_h tile(p, h) · proj(0, h, r) ) · exp(0, r, q) ) · 1/4 .
-/
import proofs.«169334_j66305705115884_1_alg».proof.Proof.Gen.KernelIdeal.Skeleton
import proofs.«169334_j66305705115884_1_alg».proof.Proof.LibDenseLayer
import Idealize.ShloMosaic.Lib.ValueLayout
import Idealize.ShloMosaic.Lib.ValueIdx
import Idealize.ShloMosaic.PureOps.Ideal.Laws

noncomputable section

namespace Cert.KernelIdeal.TileValue

open Cert.KernelIdeal Cert.KernelIdeal.Gen Idealize.ShloMosaic Idealize.ShloMosaic.ValueIdx
open Cert.KernelIdeal.Facts₀

/-- The tile against the projection, at row `p` and rank coordinate `r`: a sum over the 2048 input features. -/
theorem project_apply (X : FVec Ideal S512x2048 .bf16) (A : FVec Ideal S2048x128 .bf16) (p : Fin 512) (r : Fin 128) :
    matmul dot_S512x2048_S2048x128_S512x128_1_0_0_1_n_n none X A (constant S512x128 .f32 0x00000000#32) (ix2 p r)
      = ∑ h : Fin 2048, X (ix2 p h) * A (ix2 h r) :=
  DenseLayer.matmul_rows_apply Facts₀.dot_S512x2048_S2048x128_S512x128_1_0_0_1_n_n_wf none X A p r

/-- The low-rank image against the expansion, at row `p` and output column `q`: a sum over the 128 rank coordinates. -/
theorem expand_apply (Y : FVec Ideal S512x128 .bf16) (B : FVec Ideal S128x2048 .bf16) (p : Fin 512) (q : Fin 2048) :
    matmul dot_S512x128_S128x2048_S512x2048_1_0_0_1_n_n none Y B (constant S512x2048 .f32 0x00000000#32) (ix2 p q)
      = ∑ r : Fin 128, Y (ix2 p r) * B (ix2 r q) :=
  DenseLayer.matmul_rows_apply Facts₀.dot_S512x128_S128x2048_S512x2048_1_0_0_1_n_n_wf none Y B p q

/-- What the body stores, at entry `(p, q)` of the tile. -/
theorem stored_apply (x0 : Vec Ideal S512x2048 .f32) (x1 : Vec Ideal S1x2048x128 .f32) (x2 : Vec Ideal S1x128x2048 .f32)
    (p : Fin 512) (q : Fin 2048) :
    k0_pay1 (F := Ideal) x0 x1 x2 (ix2 p q)
      = (∑ r : Fin 128, (∑ h : Fin 2048, x0 (ix2 p h) * x1 (ix3 (0 : Fin 1) h r)) * x2 (ix3 (0 : Fin 1) r q))
          * Ideal.ofBits .f32 0x3E800000#32 := by
  unfold k0_pay1
  rw [mulf_apply, broadcast_apply, expand_apply]
  refine congrArg (· * _) (Finset.sum_congr rfl fun r _ => ?_)
  rw [truncf_apply, truncf_apply, project_apply, shapeCast_1ab_ab_apply]
  refine congrArg (· * _) (Finset.sum_congr rfl fun h _ => ?_)
  rw [truncf_apply, truncf_apply, shapeCast_1ab_ab_apply]

end Cert.KernelIdeal.TileValue

end
-- ==== Proof.Spec.lean ====
/-
  The grouped low-rank adapter, as one function of its three argument arrays.

  The 32768 token rows are packed sixteen experts one after the other, 2048 rows to an expert: row R belongs to
  expert R / 2048. For that expert e, with A_e its 2048 × 128 projection and B_e its 128 × 2048 expansion,

      out(R, o) = ( Σ_r ( Σ_h x(R, h) · A_e(h, r) ) · B_e(r, o) ) · 1/4 ,

  the inner sum the row's low-rank image at rank coordinate r, the outer one its expansion at output column o, and the
  factor the adapter's scale alpha / rank = 32 / 128, an exact binary fraction that both programs spell by the same word.
  Nothing here is rearranged: both programs sum in exactly this nesting, so no law of the extended reals beyond reading
  each product at an index is needed, and no input has to be finite.
-/
import Idealize.ShloMosaic.PureOps.Ideal
import Idealize.ShloMosaic.Lib.ValueIdx

noncomputable section

namespace Cert.GroupedAdapter

open Idealize.ShloMosaic Idealize.ShloMosaic.ValueIdx

/-- The expert that owns token row `R`: rows are packed 2048 to an expert. -/
def expertOf (R : Fin 32768) : Fin 16 := ⟨R.val / 2048, by have := R.isLt; omega⟩

/-- The low-rank image of token row `R` at rank coordinate `r`: the row against column `r` of its expert's projection. -/
def low (x : FVec Ideal ⟨2, ![32768, 2048]⟩ .f32) (a : FVec Ideal ⟨3, ![16, 2048, 128]⟩ .f32)
    (R : Fin 32768) (r : Fin 128) : EReal :=
  ∑ h : Fin 2048, x (ix2 R h) * a (ix3 (expertOf R) h r)

/-- The adapter's output at row `R`, column `o`: the low-rank image against column `o` of the expert's expansion,
    scaled by one quarter. -/
def adapterAt (x : FVec Ideal ⟨2, ![32768, 2048]⟩ .f32) (a : FVec Ideal ⟨3, ![16, 2048, 128]⟩ .f32)
    (b : FVec Ideal ⟨3, ![16, 128, 2048]⟩ .f32) (R : Fin 32768) (o : Fin 2048) : EReal :=
  (∑ r : Fin 128, low x a R r * b (ix3 (expertOf R) r o)) * Ideal.ofBits .f32 0x3E800000#32

/-- The whole output array. -/
def adapter (x : FVec Ideal ⟨2, ![32768, 2048]⟩ .f32) (a : FVec Ideal ⟨3, ![16, 2048, 128]⟩ .f32)
    (b : FVec Ideal ⟨3, ![16, 128, 2048]⟩ .f32) : FVec Ideal ⟨2, ![32768, 2048]⟩ .f32 :=
  fun i => adapterAt x a b (i 0) (i 1)

theorem adapter_apply (x : FVec Ideal ⟨2, ![32768, 2048]⟩ .f32) (a : FVec Ideal ⟨3, ![16, 2048, 128]⟩ .f32)
    (b : FVec Ideal ⟨3, ![16, 128, 2048]⟩ .f32) (R : Fin 32768) (o : Fin 2048) :
    adapter x a b (ix2 R o) = adapterAt x a b R o := rfl

end Cert.GroupedAdapter

end
-- ==== Proof.KernelArray.lean ====
/-
  From tiles to the whole output array.

  The grid has 16 × 4 points; point (e, s) works on tile 4e + s of the token rows — rows 512·(4e + s) to
  512·(4e + s) + 511, all 2048 columns — with expert e's projection and expansion, and writes the same tile of the
  output. A row R of tile k = 4e + s has R / 2048 = k / 4 = e, so the expert the point was handed is the expert the
  adapter assigns to the row, and what the point writes back is exactly that tile of the adapter's array. The 64 tiles
  cover the 32768 rows (row R lies in tile R / 512), so after the run the output array is the adapter's array.
-/
import proofs.«169334_j66305705115884_1_alg».proof.Proof.Gen.KernelIdeal.Value
import proofs.«169334_j66305705115884_1_alg».proof.Proof.KernelTile
import proofs.«169334_j66305705115884_1_alg».proof.Proof.Spec

noncomputable section

namespace Cert.KernelIdeal.ArrayValue

open Cert.KernelIdeal Cert.KernelIdeal.Gen Cert.GroupedAdapter
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin3 : (![0, 0, 0] : Fin 3 → Nat) = fun _ => 0 := funext fun a => by fin_cases a <;> rfl

/-- Which tile and which expert a grid point works on, decided over the 64 points: the token window and the output
    window sit on the same tile `k < 64` (and on the one block of columns), and the two weight windows on expert
    `k / 4` (and on that expert's one block). -/
theorem tile_of_point : ∀ t : Fin cfg0.N,
    win0_0.index t (0 : Fin 2) = win0_3.index t (0 : Fin 2) ∧ win0_0.index t (1 : Fin 2) = 0
    ∧ win0_1.index t (0 : Fin 3) = win0_3.index t (0 : Fin 2) / 4 ∧ win0_1.index t (1 : Fin 3) = 0 ∧ win0_1.index t (2 : Fin 3) = 0
    ∧ win0_2.index t (0 : Fin 3) = win0_3.index t (0 : Fin 2) / 4 ∧ win0_2.index t (1 : Fin 3) = 0 ∧ win0_2.index t (2 : Fin 3) = 0
    ∧ win0_3.index t (0 : Fin 2) < 64 ∧ win0_3.index t (1 : Fin 2) = 0 :=
  (by decide +kernel : ∀ t : Fin grid0.N, _)

/-- Every one of the 64 tiles is some grid point's. -/
theorem point_of_tile : ∀ k : Fin 64, ∃ t : Fin cfg0.N, win0_3.index t = ![k.val, 0] :=
  (by decide +kernel : ∀ k : Fin 64, ∃ t : Fin grid0.N, win0_3.index t = ![k.val, 0])

/-- The token tile at a point, read at `(p, h)`: the token array at row `R = 512 k + p`. -/
theorem tokens_read (c : Dev nD) (t : Fin cfg0.N) (p : Fin 512) (h : Fin 2048) (R : Fin 32768)
    (hR : R.val = win0_3.index t (0 : Fin 2) * 512 + p.val) :
    iblk m c 0 t (ix2 p h) = V m c main_arg0 (ix2 R h) := by
  obtain ⟨e0, e1, -⟩ := tile_of_point t
  show V m c main_arg0 (((cfg0.win 0).blk t).view.emb (ix2 p h)) = V m c main_arg0 (ix2 R h)
  refine congrArg _ (funext fun a => Fin.ext ?_)
  match a with
  | ⟨0, _⟩ => show win0_0.index t (0 : Fin 2) * 512 + 1 * p.val = R.val; omega
  | ⟨1, _⟩ => show win0_0.index t (1 : Fin 2) * 2048 + 1 * h.val = h.val; omega

/-- The projection block at a point, read at `(0, h, r)`: the projection array at the row's expert. -/
theorem projection_read (c : Dev nD) (t : Fin cfg0.N) (p : Fin 512) (h : Fin 2048) (r : Fin 128) (R : Fin 32768)
    (hR : R.val = win0_3.index t (0 : Fin 2) * 512 + p.val) :
    iblk m c 1 t (ix3 (0 : Fin 1) h r) = V m c main_arg1 (ix3 (expertOf R) h r) := by
  obtain ⟨-, -, e2, e3, e4, -⟩ := tile_of_point t
  have hp := p.isLt
  show V m c main_arg1 (((cfg0.win 1).blk t).view.emb (ix3 (0 : Fin 1) h r)) = V m c main_arg1 (ix3 (expertOf R) h r)
  refine congrArg _ (funext fun a => Fin.ext ?_)
  match a with
  | ⟨0, _⟩ => show win0_1.index t (0 : Fin 3) * 1 + 1 * 0 = R.val / 2048; omega
  | ⟨1, _⟩ => show win0_1.index t (1 : Fin 3) * 2048 + 1 * h.val = h.val; omega
  | ⟨2, _⟩ => show win0_1.index t (2 : Fin 3) * 128 + 1 * r.val = r.val; omega

/-- The expansion block at a point, read at `(0, r, q)`: the expansion array at the row's expert. -/
theorem expansion_read (c : Dev nD) (t : Fin cfg0.N) (p : Fin 512) (r : Fin 128) (q : Fin 2048) (R : Fin 32768)
    (hR : R.val = win0_3.index t (0 : Fin 2) * 512 + p.val) :
    iblk m c 2 t (ix3 (0 : Fin 1) r q) = V m c main_arg2 (ix3 (expertOf R) r q) := by
  obtain ⟨-, -, -, -, -, e5, e6, e7, -⟩ := tile_of_point t
  have hp := p.isLt
  show V m c main_arg2 (((cfg0.win 2).blk t).view.emb (ix3 (0 : Fin 1) r q)) = V m c main_arg2 (ix3 (expertOf R) r q)
  refine congrArg _ (funext fun a => Fin.ext ?_)
  match a with
  | ⟨0, _⟩ => show win0_2.index t (0 : Fin 3) * 1 + 1 * 0 = R.val / 2048; omega
  | ⟨1, _⟩ => show win0_2.index t (1 : Fin 3) * 128 + 1 * r.val = r.val; omega
  | ⟨2, _⟩ => show win0_2.index t (2 : Fin 3) * 2048 + 1 * q.val = q.val; omega

/-- WHAT A POINT WRITES BACK is its tile of the adapter's array of the argument arrays. -/
theorem flushed_eq (c : Dev nD) (t : Fin cfg0.N) :
    (dats m 0 c).flushed 3 t = ((cfg0.win 3).blk t).view.read (Elt Ideal)
      (adapter (V m c main_arg0) (V m c main_arg1) (V m c main_arg2)) := by
  rw [Value.flushed3]
  unfold out0_3
  rw [View.canon_unit_zero origin2]
  simp only [View.ld_unit_zero (S := S512x2048) origin2, View.ld_unit_zero (S := S1x2048x128) origin3,
    View.ld_unit_zero (S := S1x128x2048) origin3]
  obtain ⟨-, -, -, -, -, -, -, -, e8, e9⟩ := tile_of_point t
  funext j
  obtain ⟨p, q, rfl⟩ : ∃ (p : Fin 512) (q : Fin 2048), j = ix2 p q := ⟨j 0, j 1, eq_ix2 j⟩
  have hp := p.isLt
  obtain ⟨R, hR⟩ : ∃ R : Fin 32768, R.val = win0_3.index t (0 : Fin 2) * 512 + p.val :=
    ⟨⟨win0_3.index t (0 : Fin 2) * 512 + p.val, by omega⟩, rfl⟩
  have hemb : ((cfg0.win 3).blk t).view.emb (ix2 p q) = ix2 R q := by
    funext a; apply Fin.ext
    match a with
    | ⟨0, _⟩ => show win0_3.index t (0 : Fin 2) * 512 + 1 * p.val = R.val; omega
    | ⟨1, _⟩ => show win0_3.index t (1 : Fin 2) * 2048 + 1 * q.val = q.val; omega
  show k0_pay1 (F := Ideal) (iblk m c 0 t) (iblk m c 1 t) (iblk m c 2 t) (ix2 p q)
    = adapter (V m c main_arg0) (V m c main_arg1) (V m c main_arg2) (((cfg0.win 3).blk t).view.emb (ix2 p q))
  refine (TileValue.stored_apply (iblk m c 0 t) (iblk m c 1 t) (iblk m c 2 t) p q).trans ?_
  refine Eq.trans ?_ (congrArg (adapter (V m c main_arg0) (V m c main_arg1) (V m c main_arg2)) hemb.symm)
  rw [adapter_apply]
  unfold adapterAt low
  refine congrArg (· * _) (Finset.sum_congr rfl fun r _ => ?_)
  refine congrArg₂ (· * ·) (Finset.sum_congr rfl fun h _ => ?_) (expansion_read m c t p r q R hR)
  exact congrArg₂ (· * ·) (tokens_read m c t p h R hR) (projection_read m c t p h r R hR)

/-- An index of the output array is in a point's tile iff each coordinate is in the tile's range on its axis. -/
theorem mem_tile (t : Fin cfg0.N) (i : S32768x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v0).slice (win0_3.rect t)).set ↔ _
  rw [View.set_slice_whole, Rect.mem_set_unit]
  exact Iff.rfl

/-- The tiles cover the output array: row `R` lies in tile `R / 512`. -/
theorem covered (i : S32768x2048.Idx) :
    ∃ t : Fin cfg0.N, (cfg0.win 3).flush t = true ∧ i ∈ ((cfg0.win 3).blk t).view.set := by
  have hi0 : (i 0).val < 32768 := (i 0).isLt
  have hi1 : (i 1).val < 2048 := (i 1).isLt
  obtain ⟨t, ht⟩ := point_of_tile ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_tile]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- THE OUTPUT ARRAY after the run is the adapter's array of the arguments as launched. -/
theorem final (c : Dev nD) :
    (dats m 0 c).arrAt 3 cfg0.N = adapter (m ((c : Thread nD τ).loc main_arg0)) (m ((c : Thread nD τ).loc main_arg1))
      (m ((c : Thread nD τ).loc main_arg2)) :=
  (dats m 0 c).arrAt_eq_of_cover 3 _ (fun t _ => flushed_eq m c t) covered

/-- The kernel's run: every weakly fair execution ends with the output at the adapter's array and the arguments kept. -/
theorem run : θ_run defs (onTc (τ := τ) (main (F := Ideal))) ⟨m, fun _ => 0, ρ⟩ fun r => ∀ c : Dev nD,
      r.2.mem ((c : Thread nD τ).loc main_v0) = adapter (m ((c : Thread nD τ).loc main_arg0))
        (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.ReferenceValue.lean ====
/-
  The reference computes the adapter.

  The reference views the 32768 token rows as 16 groups of 2048, multiplies each group by its expert's projection and
  the result by its expert's expansion (two batched products, the batch axis the expert), scales by one quarter and
  flattens the groups back. Flattening sends row R to group R / 2048, row R % 2048 of it, and the regrouping sends that
  pair back to R; so read at (R, o) the reference's result is the adapter's value there, sum for sum.
-/
import proofs.«169334_j66305705115884_1_alg».proof.Proof.Gen.ReferenceIdeal.Read
import proofs.«169334_j66305705115884_1_alg».proof.Proof.Spec

noncomputable section

namespace Cert.ReferenceIdeal.AdapterValue

open Cert.ReferenceIdeal Cert.ReferenceIdeal.Read Cert.GroupedAdapter Idealize.ShloMosaic Idealize.ShloMosaic.ValueIdx

/-- Where the expansion is read: expert `R / 2048`, rank coordinate `r`, column `o`. -/
theorem expansion_idx (R : Fin 32768) (o : Fin 2048) (r : Fin 128) :
    ridx_main_v2 (idx_main_v5 (ix2 R o)) r = ix3 (expertOf R) r o := by
  have hR := R.isLt; have ho := o.isLt
  funext ax; apply Fin.ext
  match ax with
  | ⟨0, _⟩ => show (R.val * 2048 + o.val) / 4194304 = R.val / 2048; omega
  | ⟨1, _⟩ => rfl
  | ⟨2, _⟩ => show (R.val * 2048 + o.val) % 2048 = o.val; omega

/-- Where the projection is read: expert `R / 2048`, feature `h`, rank coordinate `r`. -/
theorem projection_idx (R : Fin 32768) (o : Fin 2048) (r : Fin 128) (h : Fin 2048) :
    ridx_main_v1 (lidx_main_v2 (idx_main_v5 (ix2 R o)) r) h = ix3 (expertOf R) h r := by
  have hR := R.isLt; have ho := o.isLt
  funext ax; apply Fin.ext
  match ax with
  | ⟨0, _⟩ => show (R.val * 2048 + o.val) / 4194304 = R.val / 2048; omega
  | ⟨1, _⟩ => rfl
  | ⟨2, _⟩ => rfl

/-- Where the tokens are read: regrouping undoes the flattening, so it is row `R` itself, at feature `h`. -/
theorem token_idx (R : Fin 32768) (o : Fin 2048) (r : Fin 128) (h : Fin 2048) :
    idx_main_v0 (lidx_main_v1 (lidx_main_v2 (idx_main_v5 (ix2 R o)) r) h) = ix2 R h := by
  have hR := R.isLt; have ho := o.isLt; have hh := h.isLt
  funext ax; apply Fin.ext
  match ax with
  | ⟨0, _⟩ =>
    show ((((R.val * 2048 + o.val) / 4194304) * 2048 + (R.val * 2048 + o.val) / 2048 % 2048) * 2048 + h.val) / 2048 = R.val
    omega
  | ⟨1, _⟩ =>
    show ((((R.val * 2048 + o.val) / 4194304) * 2048 + (R.val * 2048 + o.val) / 2048 % 2048) * 2048 + h.val) % 2048 = h.val
    omega

/-- The reference's result array is the adapter of its three arguments. -/
theorem result_eq (x : FVec Ideal ⟨2, ![32768, 2048]⟩ .f32) (a : FVec Ideal ⟨3, ![16, 2048, 128]⟩ .f32)
    (b : FVec Ideal ⟨3, ![16, 128, 2048]⟩ .f32) :
    val_main_v5 (F := Ideal) x a b = adapter x a b := by
  funext i
  obtain ⟨R, o, rfl⟩ : ∃ (R : Fin 32768) (o : Fin 2048), i = ix2 R o := ⟨i 0, i 1, eq_ix2 i⟩
  rw [val_main_v5_apply, val_main_v4_apply, val_main_v2_apply, val_main_v3_apply, val_main_cst_apply, adapter_apply]
  unfold adapterAt low
  refine congrArg (· * _) (Finset.sum_congr rfl fun r _ => ?_)
  rw [val_main_v1_apply, expansion_idx]
  refine congrArg (· * _) (Finset.sum_congr rfl fun h _ => ?_)
  rw [val_main_v0_apply, token_idx, projection_idx]

end Cert.ReferenceIdeal.AdapterValue

end
-- ==== Proof.lean ====
/-
  The grouped low-rank adapter: a tiled kernel against a batched reference.

  Sixteen experts share 32768 token rows, 2048 rows each. For row R of expert e = R / 2048 both programs compute

      out(R, o) = ( Σ_r ( Σ_h x(R, h) · A_e(h, r) ) · B_e(r, o) ) · 1/4 .

  The kernel walks a 16 × 4 grid; at point (e, s) it takes tile 4e + s of 512 rows with expert e's two matrices, forms
  the two products and the scaling, and writes that tile of the output (Proof/KernelTile.lean: one tile at an index;
  Proof/KernelArray.lean: the tile's rows all belong to expert e, and the 64 tiles cover the array). The reference
  regroups the rows by expert, takes two batched products, scales and flattens back (Proof/ReferenceValue.lean:
  flattening and regrouping are inverse on row indices). Both therefore end holding the one array of Proof/Spec.lean.
  On extended reals the kernel's changes of float format are the identity and the sums are nested alike on both
  sides, so the equality needs no finiteness of the inputs. The idealization rewrote nothing, so there is nothing to
  preserve; the two kernel frames are the generated frame runs and the reference's frame is its run with the result
  dropped.
-/
import proofs.«169334_j66305705115884_1_alg».proof.Defs
import proofs.«169334_j66305705115884_1_alg».proof.Proof.Gen.Kernel
import proofs.«169334_j66305705115884_1_alg».proof.Proof.Gen.Kernel.Skeleton
import proofs.«169334_j66305705115884_1_alg».proof.Proof.Gen.Kernel.Launch
import proofs.«169334_j66305705115884_1_alg».proof.Proof.Gen.Kernel.Points
import proofs.«169334_j66305705115884_1_alg».proof.Proof.Gen.Kernel.Frame
import proofs.«169334_j66305705115884_1_alg».proof.Proof.Gen.KernelIdeal
import proofs.«169334_j66305705115884_1_alg».proof.Proof.Gen.KernelIdeal.Skeleton
import proofs.«169334_j66305705115884_1_alg».proof.Proof.Gen.KernelIdeal.Launch
import proofs.«169334_j66305705115884_1_alg».proof.Proof.Gen.KernelIdeal.Points
import proofs.«169334_j66305705115884_1_alg».proof.Proof.Gen.KernelIdeal.Frame
import proofs.«169334_j66305705115884_1_alg».proof.Proof.Gen.ReferenceIdeal
import proofs.«169334_j66305705115884_1_alg».proof.Proof.Gen.Pre_finite_inputs
import proofs.«169334_j66305705115884_1_alg».proof.Proof.Gen.KernelIdeal.Value
import proofs.«169334_j66305705115884_1_alg».proof.Proof.Gen.ReferenceIdeal.Run
import proofs.«169334_j66305705115884_1_alg».proof.Proof.Gen.ReferenceIdeal.Read
import proofs.«169334_j66305705115884_1_alg».proof.Proof.KernelArray
import proofs.«169334_j66305705115884_1_alg».proof.Proof.ReferenceValue
import Idealize.ShloMosaic.Adequacy
import Idealize.ShloMosaic.Init

noncomputable section

namespace Cert.Proof

open Idealize.ShloMosaic Idealize.ShloMosaic.TcCoe Idealize.SL.Sem

namespace AdapterClaims

/-- The kernel as printed runs and keeps its arguments. -/
theorem frame_kernel : @Cert.frame_Kernel Cert.Kernel.Gen.facts Cert.Pre_finite_inputs.Gen.facts :=
  fun m ρ _ => Cert.Kernel.Gen.frame m ρ

/-- So does the kernel read on extended reals. -/
theorem frame_kernel_ideal : @Cert.frame_KernelIdeal Cert.KernelIdeal.Gen.facts Cert.Pre_finite_inputs.Gen.facts :=
  fun m ρ _ => Cert.KernelIdeal.Gen.frame m ρ

/-- The reference's run, its result dropped. -/
theorem frame_reference_ideal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs, from memories that agree on the three arguments, end holding the adapter's array of them. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.AdapterValue.result_eq,
    (hagree c).1, (hagree c).2.1, (hagree c).2.2]

end AdapterClaims

theorem claim : Cert.Claim := ⟨Cert.Kernel.Gen.facts, Cert.KernelIdeal.Gen.facts, Cert.ReferenceIdeal.Gen.facts, Cert.Pre_finite_inputs.Gen.facts,
  AdapterClaims.frame_kernel, AdapterClaims.frame_kernel_ideal, AdapterClaims.frame_reference_ideal, trivial,
  AdapterClaims.algebraic⟩

end Cert.Proof

end
